-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x64 : Shape := ⟨3, ![256, 4096, 64]⟩
abbrev S256x64x64 : Shape := ⟨3, ![256, 64, 64]⟩
abbrev S256x1x64 : Shape := ⟨3, ![256, 1, 64]⟩
abbrev S_ : Shape := ⟨0, ![]⟩

class Facts : Prop where
  bcast_S_S256x4096x64 : S_.BroadcastsInDim S256x4096x64 (![] : Fin 0 → Fin S256x4096x64.rank)
  reducesTo_S256x4096x64_S_d0_1_2 : S256x4096x64.ReducesTo [0, 1, 2] S_
  h_S_ : 0 < S_.numel
  bcast_S_S256x64x64 : S_.BroadcastsInDim S256x64x64 (![] : Fin 0 → Fin S256x64x64.rank)
  reducesTo_S256x64x64_S_d0_1_2 : S256x64x64.ReducesTo [0, 1, 2] S_
  bcast_S_S256x1x64 : S_.BroadcastsInDim S256x1x64 (![] : Fin 0 → Fin S256x1x64.rank)
  reducesTo_S256x1x64_S_d0_1_2 : S256x1x64.ReducesTo [0, 1, 2] S_

variable [Facts]

def fn_part1 {F : FTy → Type} [FloatOps F] (main_v13 : IVec S_ 1) (main_v16 : IVec S256x1x64 1) : IVec S_ 1 :=
  let main_c_5 : IVec S_ 1 := constantI S_ 1 1#1
  let main_v17 : IVec S_ 1 := (fun x v => Host.reduce IntOp.andi x v reducesTo_S256x1x64_S_d0_1_2 h_S_) main_v16 main_c_5
  let main_v18 : IVec S_ 1 := andi main_v13 main_v17
  main_v18

def fn {F : FTy → Type} [FloatOps F] (main_arg0 : FVec F S256x4096x64 .f32) (main_arg1 : FVec F S256x64x64 .f32) (main_arg2 : FVec F S256x64x64 .f32) (main_arg3 : FVec F S256x1x64 .f32) : IVec S_ 1 :=
  let main_v0 : FVec F S256x4096x64 .f32 := Host.absf main_arg0
  let main_cst : FVec F S_ .f32 := constant S_ .f32 0x7F800000#32
  let main_v1 : FVec F S256x4096x64 .f32 := broadcastInDim S256x4096x64 ![] bcast_S_S256x4096x64 main_cst
  let main_v2 : IVec S256x4096x64 1 := cmpf .olt main_v0 main_v1
  let main_c : IVec S_ 1 := constantI S_ 1 1#1
  let main_v3 : IVec S_ 1 := (fun x v => Host.reduce IntOp.andi x v reducesTo_S256x4096x64_S_d0_1_2 h_S_) main_v2 main_c
  let main_v4 : FVec F S256x64x64 .f32 := Host.absf main_arg1
  let main_cst_0 : FVec F S_ .f32 := constant S_ .f32 0x7F800000#32
  let main_v5 : FVec F S256x64x64 .f32 := broadcastInDim S256x64x64 ![] bcast_S_S256x64x64 main_cst_0
  let main_v6 : IVec S256x64x64 1 := cmpf .olt main_v4 main_v5
  let main_c_1 : IVec S_ 1 := constantI S_ 1 1#1
  let main_v7 : IVec S_ 1 := (fun x v => Host.reduce IntOp.andi x v reducesTo_S256x64x64_S_d0_1_2 h_S_) main_v6 main_c_1
  let main_v8 : IVec S_ 1 := andi main_v3 main_v7
  let main_v9 : FVec F S256x64x64 .f32 := Host.absf main_arg2
  let main_cst_2 : FVec F S_ .f32 := constant S_ .f32 0x7F800000#32
  let main_v10 : FVec F S256x64x64 .f32 := broadcastInDim S256x64x64 ![] bcast_S_S256x64x64 main_cst_2
  let main_v11 : IVec S256x64x64 1 := cmpf .olt main_v9 main_v10
  let main_c_3 : IVec S_ 1 := constantI S_ 1 1#1
  let main_v12 : IVec S_ 1 := (fun x v => Host.reduce IntOp.andi x v reducesTo_S256x64x64_S_d0_1_2 h_S_) main_v11 main_c_3
  let main_v13 : IVec S_ 1 := andi main_v8 main_v12
  let main_v14 : FVec F S256x1x64 .f32 := Host.absf main_arg3
  let main_cst_4 : FVec F S_ .f32 := constant S_ .f32 0x7F800000#32
  let main_v15 : FVec F S256x1x64 .f32 := broadcastInDim S256x1x64 ![] bcast_S_S256x1x64 main_cst_4
  let main_v16 : IVec S256x1x64 1 := cmpf .olt main_v14 main_v15
  fn_part1 (F := F) main_v13 main_v16
-- ==== Kernel.lean ====
abbrev S256x4096x64 : Shape := ⟨3, ![256, 4096, 64]⟩
abbrev S256x64x64 : Shape := ⟨3, ![256, 64, 64]⟩
abbrev S256x1x64 : Shape := ⟨3, ![256, 1, 64]⟩
abbrev S4x1024x64 : Shape := ⟨3, ![4, 1024, 64]⟩
abbrev S4x64x64 : Shape := ⟨3, ![4, 64, 64]⟩
abbrev S4x1x64 : Shape := ⟨3, ![4, 1, 64]⟩
abbrev S1x1024x64 : Shape := ⟨3, ![1, 1024, 64]⟩
abbrev S1024x64 : Shape := ⟨2, ![1024, 64]⟩
abbrev S1024x256 : Shape := ⟨2, ![1024, 256]⟩
abbrev S64x64 : Shape := ⟨2, ![64, 64]⟩
abbrev S1x64x64 : Shape := ⟨3, ![1, 64, 64]⟩
abbrev S64x256 : Shape := ⟨2, ![64, 256]⟩
abbrev S256x256 : Shape := ⟨2, ![256, 256]⟩
abbrev S1x1x64 : Shape := ⟨3, ![1, 1, 64]⟩
abbrev S64 : Shape := ⟨1, ![64]⟩
abbrev S256 : Shape := ⟨1, ![256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S256x4096x64, .f32⟩
  | .hbm, ⟨1, _⟩ => ⟨S256x64x64, .f32⟩
  | .hbm, ⟨2, _⟩ => ⟨S256x64x64, .f32⟩
  | .hbm, ⟨3, _⟩ => ⟨S256x1x64, .f32⟩
  | .hbm, ⟨4, _⟩ => ⟨S256x4096x64, .f32⟩
  | .local _ .vmem, ⟨0, _⟩ => ⟨S4x1024x64, .f32⟩
  | .local _ .vmem, ⟨1, _⟩ => ⟨S4x1024x64, .f32⟩
  | .local _ .vmem, ⟨2, _⟩ => ⟨S4x64x64, .f32⟩
  | .local _ .vmem, ⟨3, _⟩ => ⟨S4x64x64, .f32⟩
  | .local _ .vmem, ⟨4, _⟩ => ⟨S4x64x64, .f32⟩
  | .local _ .vmem, ⟨5, _⟩ => ⟨S4x64x64, .f32⟩
  | .local _ .vmem, ⟨6, _⟩ => ⟨S4x1x64, .f32⟩
  | .local _ .vmem, ⟨7, _⟩ => ⟨S4x1x64, .f32⟩
  | .local _ .vmem, ⟨8, _⟩ => ⟨S4x1024x64, .f32⟩
  | .local _ .vmem, ⟨9, _⟩ => ⟨S4x1024x64, .f32⟩
  | _, _ => ⟨S256x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S4x1024x64_S4x1024x64_0_0_0 : ∀ a, (![0, 0, 0] : Fin 3 → Nat) a + S4x1024x64.size a ≤ S4x1024x64.size a
  h_S4x1024x64 : 0 < S4x1024x64.numel
  inb_S4x64x64_S4x64x64_0_0_0 : ∀ a, (![0, 0, 0] : Fin 3 → Nat) a + S4x64x64.size a ≤ S4x64x64.size a
  h_S4x64x64 : 0 < S4x64x64.numel
  inb_S4x1x64_S4x1x64_0_0_0 : ∀ a, (![0, 0, 0] : Fin 3 → Nat) a + S4x1x64.size a ≤ S4x1x64.size a
  h_S4x1x64 : 0 < S4x1x64.numel
  bitsLt_bf16_f32 : FTy.bits .bf16 < FTy.bits .f32
  slices_S4x1024x64_o0_0_0_S1x1024x64 : S4x1024x64.Slices ![0, 0, 0] S1x1024x64
  shapeCasts_S1x1024x64_S1024x64 : S1x1024x64.ShapeCasts S1024x64
  slices_S4x1024x64_o1_0_0_S1x1024x64 : S4x1024x64.Slices ![1, 0, 0] S1x1024x64
  slices_S4x1024x64_o2_0_0_S1x1024x64 : S4x1024x64.Slices ![2, 0, 0] S1x1024x64
  slices_S4x1024x64_o3_0_0_S1x1024x64 : S4x1024x64.Slices ![3, 0, 0] S1x1024x64
  concatenates_S1024x64_S1024x64_S1024x64_S1024x64_S1024x256_d1 : Shape.Concatenates [S1024x64, S1024x64, S1024x64, S1024x64] S1024x256 1
  slices_S4x64x64_o0_0_0_S1x64x64 : S4x64x64.Slices ![0, 0, 0] S1x64x64
  shapeCasts_S1x64x64_S64x64 : S1x64x64.ShapeCasts S64x64
  concatenates_S64x64_S64x64_S64x64_S64x64_S64x256_d1 : Shape.Concatenates [S64x64, S64x64, S64x64, S64x64] S64x256 1
  slices_S4x64x64_o1_0_0_S1x64x64 : S4x64x64.Slices ![1, 0, 0] S1x64x64
  slices_S4x64x64_o2_0_0_S1x64x64 : S4x64x64.Slices ![2, 0, 0] S1x64x64
  slices_S4x64x64_o3_0_0_S1x64x64 : S4x64x64.Slices ![3, 0, 0] S1x64x64
  concatenates_S64x256_S64x256_S64x256_S64x256_S256x256_d0 : Shape.Concatenates [S64x256, S64x256, S64x256, S64x256] S256x256 0
  slices_S4x1x64_o0_0_0_S1x1x64 : S4x1x64.Slices ![0, 0, 0] S1x1x64
  shapeCasts_S1x1x64_S64 : S1x1x64.ShapeCasts S64
  slices_S4x1x64_o1_0_0_S1x1x64 : S4x1x64.Slices ![1, 0, 0] S1x1x64
  slices_S4x1x64_o2_0_0_S1x1x64 : S4x1x64.Slices ![2, 0, 0] S1x1x64
  slices_S4x1x64_o3_0_0_S1x1x64 : S4x1x64.Slices ![3, 0, 0] S1x1x64
  concatenates_S64_S64_S64_S64_S256_d0 : Shape.Concatenates [S64, S64, S64, S64] S256 0
  shapeCasts_S256_S1x256 : S256.ShapeCasts S1x256
  broadcasts_S1x256_S1024x256 : S1x256.Broadcasts S1024x256
  slices_S1024x256_o0_0_S1024x64 : S1024x256.Slices ![0, 0] S1024x64
  inb_S4x1024x64_S1x1024x64_0_0_0 : ∀ a, (![0, 0, 0] : Fin 3 → Nat) a + S1x1024x64.size a ≤ S4x1024x64.size a
  h_S1x1024x64 : 0 < S1x1024x64.numel
  shapeCasts_S1024x64_S1x1024x64 : S1024x64.ShapeCasts S1x1024x64
  slices_S1024x256_o0_64_S1024x64 : S1024x256.Slices ![0, 64] S1024x64
  inb_S4x1024x64_S1x1024x64_1_0_0 : ∀ a, (![1, 0, 0] : Fin 3 → Nat) a + S1x1024x64.size a ≤ S4x1024x64.size a
  slices_S1024x256_o0_128_S1024x64 : S1024x256.Slices ![0, 128] S1024x64
  inb_S4x1024x64_S1x1024x64_2_0_0 : ∀ a, (![2, 0, 0] : Fin 3 → Nat) a + S1x1024x64.size a ≤ S4x1024x64.size a
  slices_S1024x256_o0_192_S1024x64 : S1024x256.Slices ![0, 192] S1024x64
  inb_S4x1024x64_S1x1024x64_3_0_0 : ∀ a, (![3, 0, 0] : Fin 3 → Nat) a + S1x1024x64.size a ≤ S4x1024x64.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x64.size a ≤ S256x4096x64.size a
  hwx0_0 : ∀ i : grid0.Coords, EltTy.bits .f32 = 32 ∨ (Rect.block (s := S256x4096x64) S4x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S256x64x64.size a
  hwx0_1 : ∀ i : grid0.Coords, EltTy.bits .f32 = 32 ∨ (Rect.block (s := S256x64x64) S4x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S256x64x64.size a
  hwx0_2 : ∀ i : grid0.Coords, EltTy.bits .f32 = 32 ∨ (Rect.block (s := S256x64x64) S4x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x64.size a ≤ S256x1x64.size a
  hwx0_3 : ∀ i : grid0.Coords, EltTy.bits .f32 = 32 ∨ (Rect.block (s := S256x1x64) S4x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x64.size a ≤ S256x4096x64.size a
  hwx0_4 : ∀ i : grid0.Coords, EltTy.bits .f32 = 32 ∨ (Rect.block (s := S256x4096x64) S4x1024x64.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S4x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x4096x64 : Shape := ⟨3, ![256, 4096, 64]⟩
abbrev S256x64x64 : Shape := ⟨3, ![256, 64, 64]⟩
abbrev S256x1x64 : Shape := ⟨3, ![256, 1, 64]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S256x4096x64, .f32⟩
  | .hbm, ⟨1, _⟩ => ⟨S256x64x64, .f32⟩
  | .hbm, ⟨2, _⟩ => ⟨S256x64x64, .f32⟩
  | .hbm, ⟨3, _⟩ => ⟨S256x1x64, .f32⟩
  | .hbm, ⟨4, _⟩ => ⟨S256x64x64, .f32⟩
  | .hbm, ⟨5, _⟩ => ⟨S256x4096x64, .f32⟩
  | .hbm, ⟨6, _⟩ => ⟨S256x4096x64, .f32⟩
  | .hbm, ⟨7, _⟩ => ⟨S256x4096x64, .f32⟩
  | .hbm, ⟨8, _⟩ => ⟨S256x4096x64, .f32⟩
  | .hbm, ⟨9, _⟩ => ⟨S256x4096x64, .f32⟩
  | .hbm, ⟨10, _⟩ => ⟨S_, .f32⟩
  | .hbm, ⟨11, _⟩ => ⟨S256x4096x64, .f32⟩
  | .hbm, ⟨12, _⟩ => ⟨S256x4096x64, .f32⟩
  | .hbm, ⟨13, _⟩ => ⟨S_, .f32⟩
  | .hbm, ⟨14, _⟩ => ⟨S256x4096x64, .f32⟩
  | .hbm, ⟨15, _⟩ => ⟨S256x4096x64, .f32⟩
  | _, _ => ⟨S256x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S256x1x64_S256x4096x64_0_1_2 : S256x1x64.BroadcastsInDim S256x4096x64 (![0, 1, 2] : Fin 3 → Fin S256x4096x64.rank)
  bcast_S_S256x4096x64 : S_.BroadcastsInDim S256x4096x64 (![] : Fin 0 → Fin S256x4096x64.rank)
  dot_S256x4096x64_S256x64x64_S256x4096x64_2_1_1_2_0_0_wf : DotDims.WF S256x4096x64 S256x64x64 S256x4096x64 [2] [1] [1] [2] [0] [0]

variable [Facts₀]

def dot_S256x4096x64_S256x64x64_S256x4096x64_2_1_1_2_0_0 : DotDims S256x4096x64 S256x64x64 S256x4096x64 where
  lhsContracting := [2]
  rhsContracting := [1]
  lhsNonContracting := [1]
  rhsNonContracting := [2]
  lhsBatch := [0]
  rhsBatch := [0]
  wf := dot_S256x4096x64_S256x64x64_S256x4096x64_2_1_1_2_0_0_wf

class Facts : Prop extends Facts₀ where

variable [Facts]
-- ==== Proof.Spec.lean ====
/-
  The function both programs compute, on the extended reals. For node n, batch row b and output feature t,

      out[n, b, t] = σ( Σ_{f < 64} x[n, b, f] · (W[n, f, t] · mask[n, f, t]) + bias[n, 0, t] ),    σ(z) = 1 / (1 + e^(-z)).

  And the one law between the two arrangements of the sum. The kernel lays four nodes' rows side by side and multiplies
  by a block-diagonal 256 × 256 matrix, so its sum runs over 256 packed positions k = 64 j + f, of which only block
  j = i (the node's own weights) is not zero. On the extended reals a product with zero is zero whatever the other
  factor is, so the three foreign blocks vanish and the packed sum is the node's own sum over f. Nothing here needs
  an entry to be finite: the law uses only that addition is commutative and associative and that a · 0 = 0.
-/
import Idealize.ShloMosaic.PureOps.Ideal
import Idealize.ShloMosaic.Lib.ValueIdx

noncomputable section

open scoped BigOperators

namespace Cert.NodeSigmoid

open Idealize.ShloMosaic Idealize.ShloMosaic.ValueIdx

/-- The pre-activation of node `n` at batch row `b` and output feature `t`: the row of `x` against the masked
    weight column, plus the node's bias. -/
def linear (x : (⟨3, ![256, 4096, 64]⟩ : Shape).Idx → EReal) (W mask : (⟨3, ![256, 64, 64]⟩ : Shape).Idx → EReal)
    (bias : (⟨3, ![256, 1, 64]⟩ : Shape).Idx → EReal) (n : Fin 256) (b : Fin 4096) (t : Fin 64) : EReal :=
  (∑ f : Fin 64, x (ix3 n b f) * (W (ix3 n f t) * mask (ix3 n f t))) + bias (ix3 n (0 : Fin 1) t)

/-- The whole result array: the logistic function of the pre-activation, entry by entry. -/
def result (x : (⟨3, ![256, 4096, 64]⟩ : Shape).Idx → EReal) (W mask : (⟨3, ![256, 64, 64]⟩ : Shape).Idx → EReal)
    (bias : (⟨3, ![256, 1, 64]⟩ : Shape).Idx → EReal) : (⟨3, ![256, 4096, 64]⟩ : Shape).Idx → EReal :=
  fun i => Ideal.logistic (linear x W mask bias (i 0) (i 1) (i 2))

/-! ## The packed axis -/

/-- A position of the packed axis is a block `j < 4` and an offset `f < 64` inside it: `k = 64 j + f`. -/
def packEquiv : Fin 4 × Fin 64 ≃ Fin 256 where
  toFun p := ⟨p.1.val * 64 + p.2.val, by have := p.1.isLt; have := p.2.isLt; omega⟩
  invFun k := (⟨k.val / 64, by have := k.isLt; omega⟩, ⟨k.val % 64, Nat.mod_lt _ (by norm_num)⟩)
  left_inv p := by
    have h1 := p.1.isLt
    have h2 := p.2.isLt
    refine Prod.ext (Fin.ext ?_) (Fin.ext ?_)
    · show (p.1.val * 64 + p.2.val) / 64 = p.1.val; omega
    · show (p.1.val * 64 + p.2.val) % 64 = p.2.val; omega
  right_inv k := Fin.ext (by show k.val / 64 * 64 + k.val % 64 = k.val; omega)

theorem packEquiv_val (j : Fin 4) (f : Fin 64) : (packEquiv (j, f)).val = j.val * 64 + f.val := rfl

/-- A sum over the packed axis, block by block. -/
theorem sum_packed (g : Fin 256 → EReal) : ∑ k, g k = ∑ j : Fin 4, ∑ f : Fin 64, g (packEquiv (j, f)) := by
  rw [← Equiv.sum_comp packEquiv g, Fintype.sum_prod_type]

/-- THE BLOCK-DIAGONAL COLLAPSE. If the right factor vanishes off block `i` and is `w` on it, and the left factor is `a`
    on block `i`, the packed sum of products is the sum over the one block: the other blocks' terms are `_ · 0 = 0`. -/
theorem sum_blockDiag (L R : Fin 256 → EReal) (i : Fin 4) (a w : Fin 64 → EReal)
    (hL : ∀ f : Fin 64, L (packEquiv (i, f)) = a f)
    (hR : ∀ (j : Fin 4) (f : Fin 64), R (packEquiv (j, f)) = if j = i then w f else 0) :
    ∑ k, L k * R k = ∑ f, a f * w f := by
  rw [sum_packed, Finset.sum_eq_single i]
  · exact Finset.sum_congr rfl fun f _ => by rw [hL f, hR i f, if_pos rfl]
  · intro j _ hj
    exact Finset.sum_eq_zero fun f _ => by rw [hR j f, if_neg hj, mul_zero]
  · intro h
    exact absurd (Finset.mem_univ i) h

end Cert.NodeSigmoid

end
-- ==== Proof.LibConcatFour.lean ====
/-
  A concatenation of FOUR pieces of one shape along an axis, read at an index.

  If every piece has extent `K` along the axis, the entry at an index whose axis coordinate is `n K + r` (with `r < K`)
  is piece `n` at the index that has `r` on the axis and the same coordinates elsewhere. The piece is named by a
  number `n : Fin 4` that may stay symbolic, so a proof that packs four tiles side by side reads the packed value
  once, for all four tiles at the same time.
-/
import Idealize.ShloMosaic.Lib.Pipeline.Value

noncomputable section

namespace Idealize.ShloMosaic.ConcatFour

open Idealize.ShloMosaic

variable {α : Type}

/-- The `n`-th of four things. -/
def pick {β : Type*} (x0 x1 x2 x3 : β) (n : Fin 4) : β :=
  match n with
  | ⟨0, _⟩ => x0
  | ⟨1, _⟩ => x1
  | ⟨2, _⟩ => x2
  | ⟨3, _⟩ => x3
  | ⟨_ + 4, h⟩ => absurd h (by omega)

/-- Four pieces of one shape, each of extent `K` along axis `a`: at an index whose axis coordinate is `n · K` plus the
    coordinate of `i` there, and whose other coordinates are `i`'s, the concatenation is piece `n` at `i`. -/
theorem concatenate_four_apply {t s₁ : Shape} (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4) (i : s₁.Idx)
    (hi : ∀ b : Fin s₁.rank, b.cast hr ≠ a → (i b).val = (j (b.cast hr)).val)
    (ha : n.val * K + (i (a.cast hr.symm)).val = (j a).val) :
    concatenate t a [⟨s₁, x0⟩, ⟨s₁, x1⟩, ⟨s₁, x2⟩, ⟨s₁, x3⟩] h j = pick x0 x1 x2 x3 n i := by
  match n, ha with
  | ⟨0, _⟩, ha =>
    exact concatenate_apply_piece a _ h j 0 (by simp) s₁ x0 rfl hr 0 (by simp) i hi (by simpa using ha)
  | ⟨1, _⟩, ha =>
    exact concatenate_apply_piece a _ h j 1 (by simp) s₁ x1 rfl hr K (by simp [dif_pos hr, hK]) i hi (by simpa using ha)
  | ⟨2, _⟩, ha =>
    exact concatenate_apply_piece a _ h j 2 (by simp) s₁ x2 rfl hr (K + K) (by simp [dif_pos hr, hK]) i hi
      (by have : 2 * K + (i (a.cast hr.symm)).val = (j a).val := ha; omega)
  | ⟨3, _⟩, ha =>
    exact concatenate_apply_piece a _ h j 3 (by simp) s₁ x3 rfl hr (K + (K + K)) (by simp [dif_pos hr, hK]) i hi
      (by have : 3 * K + (i (a.cast hr.symm)).val = (j a).val := ha; omega)

end Idealize.ShloMosaic.ConcatFour

end
-- ==== Proof.PackedOperands.lean ====
/-
  The three packed operands the kernel body builds from a block of four nodes, each read at an index.

  * the ROWS: the four nodes' (1024 × 64) row tiles laid side by side into a 1024 × 256 matrix, so that column
    64 j + f holds node j's feature f;
  * the WEIGHTS: a 256 × 256 matrix whose (j, j) diagonal block is node j's masked weight tile W · mask and whose
    other twelve blocks are the zero tile;
  * the BIAS: the four nodes' bias rows laid end to end into a vector of 256.

  The narrowing of the factors to a shorter float format is the identity on the extended reals, and the zero tile's
  bit pattern denotes the extended real zero.
-/
import proofs.«428001_j65670049956245_4_alg».proof.Proof.Gen.KernelIdeal.Skeleton
import proofs.«428001_j65670049956245_4_alg».proof.Proof.Spec
import proofs.«428001_j65670049956245_4_alg».proof.Proof.LibConcatFour
import Idealize.ShloMosaic.Lib.Pipeline.Value
import Idealize.ShloMosaic.Lib.ValueIdx
import Idealize.ShloMosaic.Lib.IdealHost

noncomputable section

namespace Cert.KernelIdeal.Packed

open Cert.KernelIdeal Cert.KernelIdeal.Gen Idealize.ShloMosaic Idealize.ShloMosaic.ValueIdx
open Idealize.ShloMosaic.ConcatFour Cert.NodeSigmoid

/-! ## One node's tile of a four-node block, its unit axis dropped -/

section Tiles
variable {α : Type}

/-- Row tile `o` at (r, f) is the block at (o, r, f). -/
theorem rowTile_apply (o : Nat) (ho : o < 4) (v : S4x1024x64.Idx → α) (h1 : S4x1024x64.Slices ![o, 0, 0] S1x1024x64)
    (h2 : S1x1024x64.ShapeCasts S1024x64) (r : Fin 1024) (f : Fin 64) :
    shapeCast S1024x64 (extractStridedSlice S1x1024x64 ![o, 0, 0] v h1) h2 (ix2 r f) = v (ix3 ⟨o, ho⟩ r f) := by
  refine (shapeCast_apply _ h2 (ix2 r f) (ix3 (0 : Fin 1) r f) ?_).trans ?_
  · rw [Shape.rowMajor_val_three, Shape.rowMajor_val_two]
    show (0 * 1024 + r.val) * 64 + f.val = r.val * 64 + f.val
    omega
  · exact extractStridedSlice_apply ![o, 0, 0] v h1 _ (ix3 ⟨o, ho⟩ r f) (fun a => match a with
      | ⟨0, _⟩ => by show o = o + 0; omega
      | ⟨1, _⟩ => by show r.val = 0 + r.val; omega
      | ⟨2, _⟩ => by show f.val = 0 + f.val; omega)

/-- Weight tile `o` at (f, t) is the block at (o, f, t). -/
theorem weightTile_apply (o : Nat) (ho : o < 4) (v : S4x64x64.Idx → α) (h1 : S4x64x64.Slices ![o, 0, 0] S1x64x64)
    (h2 : S1x64x64.ShapeCasts S64x64) (f t : Fin 64) :
    shapeCast S64x64 (extractStridedSlice S1x64x64 ![o, 0, 0] v h1) h2 (ix2 f t) = v (ix3 ⟨o, ho⟩ f t) := by
  refine (shapeCast_apply _ h2 (ix2 f t) (ix3 (0 : Fin 1) f t) ?_).trans ?_
  · rw [Shape.rowMajor_val_three, Shape.rowMajor_val_two]
    show (0 * 64 + f.val) * 64 + t.val = f.val * 64 + t.val
    omega
  · exact extractStridedSlice_apply ![o, 0, 0] v h1 _ (ix3 ⟨o, ho⟩ f t) (fun a => match a with
      | ⟨0, _⟩ => by show o = o + 0; omega
      | ⟨1, _⟩ => by show f.val = 0 + f.val; omega
      | ⟨2, _⟩ => by show t.val = 0 + t.val; omega)

/-- Bias row `o`, both its unit axes dropped, at t is the block at (o, 0, t). -/
theorem biasTile_apply (o : Nat) (ho : o < 4) (v : S4x1x64.Idx → α) (h1 : S4x1x64.Slices ![o, 0, 0] S1x1x64)
    (h2 : S1x1x64.ShapeCasts S64) (t : Fin 64) :
    shapeCast S64 (extractStridedSlice S1x1x64 ![o, 0, 0] v h1) h2 (ix1 t) = v (ix3 ⟨o, ho⟩ (0 : Fin 1) t) := by
  refine (shapeCast_apply _ h2 (ix1 t) (ix3 (0 : Fin 1) (0 : Fin 1) t) ?_).trans ?_
  · rw [Shape.rowMajor_val_three, Shape.rowMajor_val_one]
    show (0 * 1 + 0) * 64 + t.val = t.val
    omega
  · exact extractStridedSlice_apply ![o, 0, 0] v h1 _ (ix3 ⟨o, ho⟩ (0 : Fin 1) t) (fun a => match a with
      | ⟨0, _⟩ => by show o = o + 0; omega
      | ⟨1, _⟩ => by show 0 = 0 + 0; omega
      | ⟨2, _⟩ => by show t.val = 0 + t.val; omega)

end Tiles

variable {F : FTy → Type} [FloatOps F]

/-! ## The rows, side by side -/

/-- The four nodes' row tiles, narrowed, laid side by side along the columns. -/
def rowsPacked (P0 : Vec F S4x1024x64 .f32) : FVec F S1024x256 .bf16 :=
  concatenate S1024x256 1
    [⟨S1024x64, shapeCast S1024x64 (extractStridedSlice S1x1024x64 ![0, 0, 0] (truncf .bf16 P0 bitsLt_bf16_f32) slices_S4x1024x64_o0_0_0_S1x1024x64) shapeCasts_S1x1024x64_S1024x64⟩,
     ⟨S1024x64, shapeCast S1024x64 (extractStridedSlice S1x1024x64 ![1, 0, 0] (truncf .bf16 P0 bitsLt_bf16_f32) slices_S4x1024x64_o1_0_0_S1x1024x64) shapeCasts_S1x1024x64_S1024x64⟩,
     ⟨S1024x64, shapeCast S1024x64 (extractStridedSlice S1x1024x64 ![2, 0, 0] (truncf .bf16 P0 bitsLt_bf16_f32) slices_S4x1024x64_o2_0_0_S1x1024x64) shapeCasts_S1x1024x64_S1024x64⟩,
     ⟨S1024x64, shapeCast S1024x64 (extractStridedSlice S1x1024x64 ![3, 0, 0] (truncf .bf16 P0 bitsLt_bf16_f32) slices_S4x1024x64_o3_0_0_S1x1024x64) shapeCasts_S1x1024x64_S1024x64⟩]
    concatenates_S1024x64_S1024x64_S1024x64_S1024x64_S1024x256_d1

/-- Column 64 j + f of the packed rows, at row r, is node j's feature f of that row. -/
theorem rowsPacked_apply (P0 : Vec Ideal S4x1024x64 .f32) (r : Fin 1024) (j : Fin 4) (f : Fin 64) :
    rowsPacked (F := Ideal) P0 (ix2 r (packEquiv (j, f))) = P0 (ix3 j r f) := by
  unfold rowsPacked
  refine (concatenate_four_apply (t := S1024x256) (s₁ := S1024x64) (1 : Fin 2) _ _ _ _ _ rfl 64 rfl (ix2 r (packEquiv (j, f))) j (ix2 r f) ?_ ?_).trans ?_
  · intro b hb
    match b, hb with
    | ⟨0, _⟩, _ => rfl
    | ⟨1, _⟩, hb => exact absurd rfl hb
  · rfl
  · match j with
    | ⟨0, _⟩ => exact rowTile_apply 0 (by omega) _ _ _ r f
    | ⟨1, _⟩ => exact rowTile_apply 1 (by omega) _ _ _ r f
    | ⟨2, _⟩ => exact rowTile_apply 2 (by omega) _ _ _ r f
    | ⟨3, _⟩ => exact rowTile_apply 3 (by omega) _ _ _ r f

/-! ## The bias rows, end to end -/

/-- The four nodes' bias rows laid end to end. -/
def biasPacked (P3 : Vec F S4x1x64 .f32) : FVec F S256 .f32 :=
  concatenate S256 0
    [⟨S64, shapeCast S64 (extractStridedSlice S1x1x64 ![0, 0, 0] P3 slices_S4x1x64_o0_0_0_S1x1x64) shapeCasts_S1x1x64_S64⟩,
     ⟨S64, shapeCast S64 (extractStridedSlice S1x1x64 ![1, 0, 0] P3 slices_S4x1x64_o1_0_0_S1x1x64) shapeCasts_S1x1x64_S64⟩,
     ⟨S64, shapeCast S64 (extractStridedSlice S1x1x64 ![2, 0, 0] P3 slices_S4x1x64_o2_0_0_S1x1x64) shapeCasts_S1x1x64_S64⟩,
     ⟨S64, shapeCast S64 (extractStridedSlice S1x1x64 ![3, 0, 0] P3 slices_S4x1x64_o3_0_0_S1x1x64) shapeCasts_S1x1x64_S64⟩]
    concatenates_S64_S64_S64_S64_S256_d0

/-- Entry 64 j + t of the packed bias is node j's bias for feature t. -/
theorem biasPacked_apply (P3 : Vec F S4x1x64 .f32) (j : Fin 4) (t : Fin 64) :
    biasPacked P3 (ix1 (packEquiv (j, t))) = P3 (ix3 j (0 : Fin 1) t) := by
  unfold biasPacked
  refine (concatenate_four_apply (t := S256) (s₁ := S64) (0 : Fin 1) _ _ _ _ _ rfl 64 rfl (ix1 (packEquiv (j, t))) j (ix1 t) ?_ ?_).trans ?_
  · intro b hb
    match b, hb with
    | ⟨0, _⟩, hb => exact absurd rfl hb
  · rfl
  · match j with
    | ⟨0, _⟩ => exact biasTile_apply 0 (by omega) _ _ _ t
    | ⟨1, _⟩ => exact biasTile_apply 1 (by omega) _ _ _ t
    | ⟨2, _⟩ => exact biasTile_apply 2 (by omega) _ _ _ t
    | ⟨3, _⟩ => exact biasTile_apply 3 (by omega) _ _ _ t

/-- The packed bias as one row, repeated down the 1024 rows: at (r, c) it is the packed bias at c. -/
theorem biasRows_apply {α : Type} (v : S256.Idx → α) (h1 : S256.ShapeCasts S1x256) (h2 : S1x256.Broadcasts S1024x256)
    (r : Fin 1024) (c : Fin 256) :
    broadcastTo S1024x256 (shapeCast S1x256 v h1) h2 (ix2 r c) = v (ix1 c) := by
  refine (broadcastTo_apply _ h2 (ix2 r c) (ix2 (0 : Fin 1) c) (fun a => match a with
      | ⟨0, _⟩ => by show 0 = if (1 : Nat) = 1 then 0 else r.val; rw [if_pos rfl]
      | ⟨1, _⟩ => by show c.val = if (256 : Nat) = 1 then 0 else c.val; rw [if_neg (by decide)])).trans ?_
  refine shapeCast_apply _ h1 (ix2 (0 : Fin 1) c) (ix1 c) ?_
  rw [Shape.rowMajor_val_one, Shape.rowMajor_val_two]
  show c.val = 0 * 256 + c.val
  omega

end Cert.KernelIdeal.Packed

end
-- ==== Proof.PackedWeights.lean ====
/-
  The block-diagonal weight matrix the kernel body builds from a block of four nodes, read at an index.

  Row 64 j + f, column 64 j' + t of the 256 × 256 matrix is node j's masked weight W[j, f, t] · mask[j, f, t] when
  j = j' (a diagonal block) and zero otherwise: each of the four 64 × 256 row bands is one weight tile among three
  zero tiles, the weight tile standing in the band's own column block.
-/
import proofs.«428001_j65670049956245_4_alg».proof.Proof.PackedOperands

noncomputable section

namespace Cert.KernelIdeal.Packed

open Cert.KernelIdeal Cert.KernelIdeal.Gen Idealize.ShloMosaic Idealize.ShloMosaic.ValueIdx
open Idealize.ShloMosaic.ConcatFour Cert.NodeSigmoid

section Bands
variable {α : Type}

/-- A row band of four tiles side by side: at column 64 j' + t it is tile j' at column t. -/
theorem blockRow_apply (a0 a1 a2 a3 : S64x64.Idx → α)
    (h : Shape.Concatenates (([⟨S64x64, a0⟩, ⟨S64x64, a1⟩, ⟨S64x64, a2⟩, ⟨S64x64, a3⟩] : List ((s : Shape) × (s.Idx → α))).map (·.1)) S64x256 1)
    (f : Fin 64) (j' : Fin 4) (t : Fin 64) :
    concatenate S64x256 1 [⟨S64x64, a0⟩, ⟨S64x64, a1⟩, ⟨S64x64, a2⟩, ⟨S64x64, a3⟩] h (ix2 f (packEquiv (j', t)))
      = pick a0 a1 a2 a3 j' (ix2 f t) := by
  refine concatenate_four_apply (t := S64x256) (s₁ := S64x64) (1 : Fin 2) _ _ _ _ h rfl 64 rfl (ix2 f (packEquiv (j', t))) j' (ix2 f t) ?_ ?_
  · intro b hb
    match b, hb with
    | ⟨0, _⟩, _ => rfl
    | ⟨1, _⟩, hb => exact absurd rfl hb
  · rfl

/-- Four row bands stacked: at row 64 j + f it is band j at row f. -/
theorem blockCol_apply (r0 r1 r2 r3 : S64x256.Idx → α)
    (h : Shape.Concatenates (([⟨S64x256, r0⟩, ⟨S64x256, r1⟩, ⟨S64x256, r2⟩, ⟨S64x256, r3⟩] : List ((s : Shape) × (s.Idx → α))).map (·.1)) S256x256 0)
    (j : Fin 4) (f : Fin 64) (c : Fin 256) :
    concatenate S256x256 0 [⟨S64x256, r0⟩, ⟨S64x256, r1⟩, ⟨S64x256, r2⟩, ⟨S64x256, r3⟩] h (ix2 (packEquiv (j, f)) c)
      = pick r0 r1 r2 r3 j (ix2 f c) := by
  refine concatenate_four_apply (t := S256x256) (s₁ := S64x256) (0 : Fin 2) _ _ _ _ h rfl 64 rfl (ix2 (packEquiv (j, f)) c) j (ix2 f c) ?_ ?_
  · intro b hb
    match b, hb with
    | ⟨0, _⟩, hb => exact absurd rfl hb
    | ⟨1, _⟩, _ => rfl
  · rfl

end Bands

variable {F : FTy → Type} [FloatOps F]

/-- The zero tile: a splat of the zero word. -/
def zeroTile : FVec F S64x64 .bf16 := broadcast S64x64 (Scalar.ofBits .bf16 0x0000#16)

/-- Its word denotes the extended real zero. -/
theorem zeroTile_apply (y : S64x64.Idx) : zeroTile (F := Ideal) y = 0 := by
  show Ideal.ofBits .bf16 0x0000#16 = 0
  exact Ideal.ofBits_zero_bf16

/-- The masked weights of the four nodes, narrowed. -/
def maskedWeights (P1 P2 : Vec F S4x64x64 .f32) : FVec F S4x64x64 .bf16 := truncf .bf16 (mulf P1 P2) bitsLt_bf16_f32

/-- Node 0's masked weight tile. -/
def weightTile0 (P1 P2 : Vec F S4x64x64 .f32) : FVec F S64x64 .bf16 :=
  shapeCast S64x64 (extractStridedSlice S1x64x64 ![0, 0, 0] (maskedWeights P1 P2) slices_S4x64x64_o0_0_0_S1x64x64) shapeCasts_S1x64x64_S64x64

/-- Node 1's masked weight tile. -/
def weightTile1 (P1 P2 : Vec F S4x64x64 .f32) : FVec F S64x64 .bf16 :=
  shapeCast S64x64 (extractStridedSlice S1x64x64 ![1, 0, 0] (maskedWeights P1 P2) slices_S4x64x64_o1_0_0_S1x64x64) shapeCasts_S1x64x64_S64x64

/-- Node 2's masked weight tile. -/
def weightTile2 (P1 P2 : Vec F S4x64x64 .f32) : FVec F S64x64 .bf16 :=
  shapeCast S64x64 (extractStridedSlice S1x64x64 ![2, 0, 0] (maskedWeights P1 P2) slices_S4x64x64_o2_0_0_S1x64x64) shapeCasts_S1x64x64_S64x64

/-- Node 3's masked weight tile. -/
def weightTile3 (P1 P2 : Vec F S4x64x64 .f32) : FVec F S64x64 .bf16 :=
  shapeCast S64x64 (extractStridedSlice S1x64x64 ![3, 0, 0] (maskedWeights P1 P2) slices_S4x64x64_o3_0_0_S1x64x64) shapeCasts_S1x64x64_S64x64

/-- Each tile at (f, t) is that node's weight times its mask there: the narrowing is the identity on extended reals. -/
theorem weightTile0_apply (P1 P2 : Vec Ideal S4x64x64 .f32) (f t : Fin 64) :
    weightTile0 (F := Ideal) P1 P2 (ix2 f t) = P1 (ix3 (0 : Fin 4) f t) * P2 (ix3 (0 : Fin 4) f t) :=
  weightTile_apply 0 (by omega) (maskedWeights (F := Ideal) P1 P2) _ _ f t

theorem weightTile1_apply (P1 P2 : Vec Ideal S4x64x64 .f32) (f t : Fin 64) :
    weightTile1 (F := Ideal) P1 P2 (ix2 f t) = P1 (ix3 (1 : Fin 4) f t) * P2 (ix3 (1 : Fin 4) f t) :=
  weightTile_apply 1 (by omega) (maskedWeights (F := Ideal) P1 P2) _ _ f t

theorem weightTile2_apply (P1 P2 : Vec Ideal S4x64x64 .f32) (f t : Fin 64) :
    weightTile2 (F := Ideal) P1 P2 (ix2 f t) = P1 (ix3 (2 : Fin 4) f t) * P2 (ix3 (2 : Fin 4) f t) :=
  weightTile_apply 2 (by omega) (maskedWeights (F := Ideal) P1 P2) _ _ f t

theorem weightTile3_apply (P1 P2 : Vec Ideal S4x64x64 .f32) (f t : Fin 64) :
    weightTile3 (F := Ideal) P1 P2 (ix2 f t) = P1 (ix3 (3 : Fin 4) f t) * P2 (ix3 (3 : Fin 4) f t) :=
  weightTile_apply 3 (by omega) (maskedWeights (F := Ideal) P1 P2) _ _ f t

/-- The 256 × 256 matrix: four row bands, band j carrying node j's tile in column block j and zero tiles elsewhere. -/
def weightsBlock (P1 P2 : Vec F S4x64x64 .f32) : FVec F S256x256 .bf16 :=
  concatenate S256x256 0
    [⟨S64x256, concatenate S64x256 1 [⟨S64x64, weightTile0 P1 P2⟩, ⟨S64x64, zeroTile⟩, ⟨S64x64, zeroTile⟩, ⟨S64x64, zeroTile⟩] concatenates_S64x64_S64x64_S64x64_S64x64_S64x256_d1⟩,
     ⟨S64x256, concatenate S64x256 1 [⟨S64x64, zeroTile⟩, ⟨S64x64, weightTile1 P1 P2⟩, ⟨S64x64, zeroTile⟩, ⟨S64x64, zeroTile⟩] concatenates_S64x64_S64x64_S64x64_S64x64_S64x256_d1⟩,
     ⟨S64x256, concatenate S64x256 1 [⟨S64x64, zeroTile⟩, ⟨S64x64, zeroTile⟩, ⟨S64x64, weightTile2 P1 P2⟩, ⟨S64x64, zeroTile⟩] concatenates_S64x64_S64x64_S64x64_S64x64_S64x256_d1⟩,
     ⟨S64x256, concatenate S64x256 1 [⟨S64x64, zeroTile⟩, ⟨S64x64, zeroTile⟩, ⟨S64x64, zeroTile⟩, ⟨S64x64, weightTile3 P1 P2⟩] concatenates_S64x64_S64x64_S64x64_S64x64_S64x256_d1⟩]
    concatenates_S64x256_S64x256_S64x256_S64x256_S256x256_d0

/-- THE MATRIX AT AN INDEX: on the diagonal blocks the node's masked weight, zero off them. Band by band: the band's
    own column block holds its tile, and the three others hold the zero tile. -/
theorem weightsBlock_apply (P1 P2 : Vec Ideal S4x64x64 .f32) (j j' : Fin 4) (f t : Fin 64) :
    weightsBlock (F := Ideal) P1 P2 (ix2 (packEquiv (j, f)) (packEquiv (j', t)))
      = if j = j' then P1 (ix3 j f t) * P2 (ix3 j f t) else 0 := by
  unfold weightsBlock
  refine (blockCol_apply _ _ _ _ _ j f _).trans ?_
  match j with
  | ⟨0, _⟩ =>
    refine (blockRow_apply _ _ _ _ concatenates_S64x64_S64x64_S64x64_S64x64_S64x256_d1 f j' t).trans ?_
    match j' with
    | ⟨0, _⟩ => exact (weightTile0_apply P1 P2 f t).trans (if_pos rfl).symm
    | ⟨1, _⟩ => exact (zeroTile_apply _).trans (if_neg (by simp)).symm
    | ⟨2, _⟩ => exact (zeroTile_apply _).trans (if_neg (by simp)).symm
    | ⟨3, _⟩ => exact (zeroTile_apply _).trans (if_neg (by simp)).symm
  | ⟨1, _⟩ =>
    refine (blockRow_apply _ _ _ _ concatenates_S64x64_S64x64_S64x64_S64x64_S64x256_d1 f j' t).trans ?_
    match j' with
    | ⟨0, _⟩ => exact (zeroTile_apply _).trans (if_neg (by simp)).symm
    | ⟨1, _⟩ => exact (weightTile1_apply P1 P2 f t).trans (if_pos rfl).symm
    | ⟨2, _⟩ => exact (zeroTile_apply _).trans (if_neg (by simp)).symm
    | ⟨3, _⟩ => exact (zeroTile_apply _).trans (if_neg (by simp)).symm
  | ⟨2, _⟩ =>
    refine (blockRow_apply _ _ _ _ concatenates_S64x64_S64x64_S64x64_S64x64_S64x256_d1 f j' t).trans ?_
    match j' with
    | ⟨0, _⟩ => exact (zeroTile_apply _).trans (if_neg (by simp)).symm
    | ⟨1, _⟩ => exact (zeroTile_apply _).trans (if_neg (by simp)).symm
    | ⟨2, _⟩ => exact (weightTile2_apply P1 P2 f t).trans (if_pos rfl).symm
    | ⟨3, _⟩ => exact (zeroTile_apply _).trans (if_neg (by simp)).symm
  | ⟨3, _⟩ =>
    refine (blockRow_apply _ _ _ _ concatenates_S64x64_S64x64_S64x64_S64x64_S64x256_d1 f j' t).trans ?_
    match j' with
    | ⟨0, _⟩ => exact (zeroTile_apply _).trans (if_neg (by simp)).symm
    | ⟨1, _⟩ => exact (zeroTile_apply _).trans (if_neg (by simp)).symm
    | ⟨2, _⟩ => exact (zeroTile_apply _).trans (if_neg (by simp)).symm
    | ⟨3, _⟩ => exact (weightTile3_apply P1 P2 f t).trans (if_pos rfl).symm

end Cert.KernelIdeal.Packed

end
-- ==== Proof.Payload.lean ====
/-
  What the kernel body computes for one block of four nodes, entry by entry.

  The body multiplies the packed rows (1024 × 256) by the block-diagonal weights (256 × 256) into a zero accumulator,
  adds the packed bias to every row and applies the logistic function. At row r and column 64 i + t the product is
  a sum over the 256 packed positions; by the block-diagonal collapse only node i's 64 positions contribute, so the
  entry is

      σ( Σ_{f < 64} x[i, r, f] · (W[i, f, t] · mask[i, f, t]) + bias[i, 0, t] ),

  the specification's value for node i of the block.
-/
import proofs.«428001_j65670049956245_4_alg».proof.Proof.PackedWeights
import Idealize.ShloMosaic.PureOps.Ideal.Laws

noncomputable section

open scoped BigOperators

namespace Cert.KernelIdeal.Packed

open Cert.KernelIdeal Cert.KernelIdeal.Gen Idealize.ShloMosaic Idealize.ShloMosaic.ValueIdx
open Idealize.ShloMosaic.ConcatFour Cert.NodeSigmoid

/-- The body's value, as the operations on the three packed operands: the same term, regrouped. -/
theorem pay5_eq {F : FTy → Type} [FloatOps F] (P0 : Vec F S4x1024x64 .f32) (P1 P2 : Vec F S4x64x64 .f32) (P3 : Vec F S4x1x64 .f32) :
    k0_pay5 P0 P1 P2 P3
      = logistic (addf (matmul dot_S1024x256_S256x256_S1024x256_1_0_0_1_n_n none (rowsPacked P0) (weightsBlock P1 P2) (constant S1024x256 .f32 0x00000000#32))
          (broadcastTo S1024x256 (shapeCast S1x256 (biasPacked P3) shapeCasts_S256_S1x256) broadcasts_S1x256_S1024x256)) := rfl

/-! ## The product's operand indices: rows × the contracted axis, the contracted axis × columns -/

theorem lhs_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl

theorem lhs_col (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q

theorem rhs_row (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q

theorem rhs_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product into the zero accumulator, at (r, c), is the sum over the 256 packed positions k of
    left (r, k) times right (k, c). -/
theorem packedMatmul_apply (lhs : FVec Ideal S1024x256 .bf16) (rhs : FVec Ideal S256x256 .bf16) (r : Fin 1024) (c : Fin 256) :
    matmul dot_S1024x256_S256x256_S1024x256_1_0_0_1_n_n none lhs rhs (constant (F := Ideal) S1024x256 .f32 0x00000000#32) (ix2 r c)
      = ∑ k : Fin 256, lhs (ix2 r k) * rhs (ix2 k c) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r c) ((ValueIdx.contrEquiv1 dot_S1024x256_S256x256_S1024x256_1_0_0_1_n_n 256 rfl rfl).symm k) = ix2 r k := funext fun a => Fin.ext (by
    match a with
    | ⟨0, _⟩ => exact lhs_row _ _
    | ⟨1, _⟩ => exact (lhs_col _ _).trans hk)
  have er : dot_S1024x256_S256x256_S1024x256_1_0_0_1_n_n.rhsIdx (ix2 r c) ((ValueIdx.contrEquiv1 dot_S1024x256_S256x256_S1024x256_1_0_0_1_n_n 256 rfl rfl).symm k) = ix2 k c := funext fun a => Fin.ext (by
    match a with
    | ⟨0, _⟩ => exact (rhs_row _ _).trans hk
    | ⟨1, _⟩ => exact rhs_col _ _)
  rw [el, er]

/-- THE BODY'S VALUE AT AN ENTRY: row r, column 64 i + t is the logistic function of node i's pre-activation over
    the block's own rows, weights, mask and bias. -/
theorem pay5_apply (P0 : Vec Ideal S4x1024x64 .f32) (P1 P2 : Vec Ideal S4x64x64 .f32) (P3 : Vec Ideal S4x1x64 .f32)
    (r : Fin 1024) (i : Fin 4) (t : Fin 64) :
    k0_pay5 (F := Ideal) P0 P1 P2 P3 (ix2 r (packEquiv (i, t)))
      = Ideal.logistic ((∑ f : Fin 64, P0 (ix3 i r f) * (P1 (ix3 i f t) * P2 (ix3 i f t))) + P3 (ix3 i (0 : Fin 1) t)) := by
  have hm := packedMatmul_apply (rowsPacked (F := Ideal) P0) (weightsBlock (F := Ideal) P1 P2) r (packEquiv (i, t))
  have hb := (biasRows_apply (biasPacked (F := Ideal) P3) shapeCasts_S256_S1x256 broadcasts_S1x256_S1024x256 r (packEquiv (i, t))).trans
    (biasPacked_apply (F := Ideal) P3 i t)
  have hs := sum_blockDiag (fun k => rowsPacked (F := Ideal) P0 (ix2 r k)) (fun k => weightsBlock (F := Ideal) P1 P2 (ix2 k (packEquiv (i, t)))) i
    (fun f => P0 (ix3 i r f)) (fun f => P1 (ix3 i f t) * P2 (ix3 i f t)) (fun f => rowsPacked_apply P0 r i f)
    (fun j f => (weightsBlock_apply P1 P2 j i f t).trans (by
      by_cases h : j = i
      · subst h; rfl
      · rw [if_neg h, if_neg h]))
  rw [pay5_eq]
  show Ideal.logistic (matmul dot_S1024x256_S256x256_S1024x256_1_0_0_1_n_n none (rowsPacked (F := Ideal) P0) (weightsBlock (F := Ideal) P1 P2) (constant (F := Ideal) S1024x256 .f32 0x00000000#32) (ix2 r (packEquiv (i, t)))
      + broadcastTo S1024x256 (shapeCast S1x256 (biasPacked (F := Ideal) P3) shapeCasts_S256_S1x256) broadcasts_S1x256_S1024x256 (ix2 r (packEquiv (i, t)))) = _
  rw [hm, hb, hs]

end Cert.KernelIdeal.Packed

end
-- ==== Proof.Blocks.lean ====
/-
  From the kernel's blocks to its whole result array.

  The grid has 64 × 4 points; point t = 4 p + q works on nodes 4 p … 4 p + 3 and batch rows 1024 q … 1024 q + 1023.
  There the rows window and the result window hold block (p, q, 0) of their arrays, and the weights, mask and bias
  windows hold block (p, 0, 0) of theirs. So entry (i, r, t') of the block the point writes back lies at array index
  (4 p + i, 1024 q + r, t'), and the body's value for it reads exactly the entries of x, W, mask and bias that the
  specification reads at that array index. Every array index lies in the block of the point p = n / 4, q = b / 1024,
  so the blocks cover the result array and it ends holding the specification's array.
-/
import proofs.«428001_j65670049956245_4_alg».proof.Proof.Gen.KernelIdeal.Value
import proofs.«428001_j65670049956245_4_alg».proof.Proof.Payload

noncomputable section

open scoped BigOperators

namespace Cert.KernelIdeal.Blocks

open Cert.KernelIdeal Cert.KernelIdeal.Gen Cert.KernelIdeal.Value Cert.KernelIdeal.Packed
open Idealize.ShloMosaic Idealize.ShloMosaic.TcCoe Idealize.SL.Sem Idealize.ShloMosaic.ValueIdx Cert.NodeSigmoid
open Idealize.ShloMosaic.Pipeline (Dat)

/-! ## One block, entry by entry -/

theorem zeros3 : (![0, 0, 0] : Fin 3 → Nat) = fun _ => 0 := funext fun a => by fin_cases a <;> rfl

/-- Where the generated reading of the four stores looks into the body's value: row `y 1`, column `64 (y 0) + y 2`. -/
theorem packedIdx_eq (y : S4x1024x64.Idx) : ix4_0 y = ix2 (n0 := 1024) (n1 := 256) (y 1) (packEquiv (y 0, y 2)) :=
  funext fun a => match a with | ⟨0, _⟩ => rfl | ⟨1, _⟩ => rfl

/-- ENTRY `y` OF THE BLOCK A POINT LEAVES, for any input blocks: if the entries of the input blocks that node `y 0`'s
    pre-activation reads are the entries of whole arrays X, W, M, B that the specification reads at an array index
    `i`, the block's entry is the specification's at `i`. -/
theorem block_entry (x0 : Vec Ideal S4x1024x64 .f32) (x1 x2 : Vec Ideal S4x64x64 .f32) (x3 : Vec Ideal S4x1x64 .f32)
    (X : S256x4096x64.Idx → EReal) (W M : S256x64x64.Idx → EReal) (B : S256x1x64.Idx → EReal)
    (y : S4x1024x64.Idx) (i : S256x4096x64.Idx)
    (h0 : ∀ f : Fin 64, x0 (ix3 (n0 := 4) (n1 := 1024) (n2 := 64) (y 0) (y 1) f) = X (ix3 (n0 := 256) (n1 := 4096) (n2 := 64) (i 0) (i 1) f))
    (h1 : ∀ f : Fin 64, x1 (ix3 (n0 := 4) (n1 := 64) (n2 := 64) (y 0) f (y 2)) = W (ix3 (n0 := 256) (n1 := 64) (n2 := 64) (i 0) f (i 2)))
    (h2 : ∀ f : Fin 64, x2 (ix3 (n0 := 4) (n1 := 64) (n2 := 64) (y 0) f (y 2)) = M (ix3 (n0 := 256) (n1 := 64) (n2 := 64) (i 0) f (i 2)))
    (h3 : x3 (ix3 (n0 := 4) (n1 := 1) (n2 := 64) (y 0) (0 : Fin 1) (y 2)) = B (ix3 (n0 := 256) (n1 := 1) (n2 := 64) (i 0) (0 : Fin 1) (i 2))) :
    out0_4 (F := Ideal) x0 x1 x2 x3 y = result X W M B i := by
  unfold out0_4
  rw [canon4_eq]
  show k0_pay5 (F := Ideal) (View.ld x0 r0_0) (View.ld x1 r0_1) (View.ld x2 r0_1) (View.ld x3 r0_2) (ix4_0 y) = _
  rw [View.ld_unit_zero (S := S4x1024x64) zeros3, View.ld_unit_zero (S := S4x64x64) zeros3, View.ld_unit_zero (S := S4x64x64) zeros3,
    View.ld_unit_zero (S := S4x1x64) zeros3, packedIdx_eq]
  refine (pay5_apply x0 x1 x2 x3 (y 1) (y 0) (y 2)).trans ?_
  unfold result linear
  rw [h3]
  congr 2
  exact Finset.sum_congr rfl fun f _ => by rw [h0 f, h1 f, h2 f]

/-! ## Where the windows' blocks sit -/

/-- At point t = 4 p + q: the result and the rows at block (p, q, 0); weights, mask and bias at block (p, 0, 0). -/
theorem block_positions : ∀ t : Fin cfg0.N,
    win0_4.index t (0 : Fin 3) = t.val / 4 ∧ win0_4.index t (1 : Fin 3) = t.val % 4 ∧ win0_4.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

variable (m : (ℓ : Loc nD τ sig) → Buf (Elt Ideal) ℓ) (ρ : Dev nD → PrngReg)

/-- WHAT POINT `t` WRITES BACK is block `t` of the specification's array of the argument arrays. -/
theorem flushed_eq (c : Dev nD) (t : Fin cfg0.N) :
    (dats m 0 c).flushed 4 t
      = ((cfg0.win 4).blk t).view.read (Elt Ideal) (result (V m c main_arg0) (V m c main_arg1) (V m c main_arg2) (V m c main_arg3)) := by
  rw [flushed4]
  obtain ⟨o0, o1, o2, a0, a1, a2, b0, b1, b2, c0, c1, c2, d0, d1, d2⟩ := block_positions t
  funext y
  have hy0 : (y 0).val < 4 := (y 0).isLt
  have hy1 : (y 1).val < 1024 := (y 1).isLt
  have hy2 : (y 2).val < 64 := (y 2).isLt
  show out0_4 (F := Ideal) (iblk m c 0 t) (iblk m c 1 t) (iblk m c 2 t) (iblk m c 3 t) y
    = result (V m c main_arg0) (V m c main_arg1) (V m c main_arg2) (V m c main_arg3) (((cfg0.win 4).blk t).view.emb y)
  refine block_entry (iblk m c 0 t) (iblk m c 1 t) (iblk m c 2 t) (iblk m c 3 t) (V m c main_arg0) (V m c main_arg1) (V m c main_arg2) (V m c main_arg3)
    y (((cfg0.win 4).blk t).view.emb y) ?_ ?_ ?_ ?_
  · intro f
    show V m c main_arg0 (((cfg0.win 0).blk t).view.emb (ix3 (y 0) (y 1) f)) = V m c main_arg0 _
    congr 1; funext a; apply Fin.ext
    match a with
    | ⟨0, _⟩ => show win0_0.index t (0 : Fin 3) * 4 + 1 * (y 0).val = win0_4.index t (0 : Fin 3) * 4 + 1 * (y 0).val; omega
    | ⟨1, _⟩ => show win0_0.index t (1 : Fin 3) * 1024 + 1 * (y 1).val = win0_4.index t (1 : Fin 3) * 1024 + 1 * (y 1).val; omega
    | ⟨2, _⟩ => show win0_0.index t (2 : Fin 3) * 64 + 1 * f.val = f.val; omega
  · intro f
    show V m c main_arg1 (((cfg0.win 1).blk t).view.emb (ix3 (y 0) f (y 2))) = V m c main_arg1 _
    congr 1; funext a; apply Fin.ext
    match a with
    | ⟨0, _⟩ => show win0_1.index t (0 : Fin 3) * 4 + 1 * (y 0).val = win0_4.index t (0 : Fin 3) * 4 + 1 * (y 0).val; omega
    | ⟨1, _⟩ => show win0_1.index t (1 : Fin 3) * 64 + 1 * f.val = f.val; omega
    | ⟨2, _⟩ => show win0_1.index t (2 : Fin 3) * 64 + 1 * (y 2).val = win0_4.index t (2 : Fin 3) * 64 + 1 * (y 2).val; omega
  · intro f
    show V m c main_arg2 (((cfg0.win 2).blk t).view.emb (ix3 (y 0) f (y 2))) = V m c main_arg2 _
    congr 1; funext a; apply Fin.ext
    match a with
    | ⟨0, _⟩ => show win0_2.index t (0 : Fin 3) * 4 + 1 * (y 0).val = win0_4.index t (0 : Fin 3) * 4 + 1 * (y 0).val; omega
    | ⟨1, _⟩ => show win0_2.index t (1 : Fin 3) * 64 + 1 * f.val = f.val; omega
    | ⟨2, _⟩ => show win0_2.index t (2 : Fin 3) * 64 + 1 * (y 2).val = win0_4.index t (2 : Fin 3) * 64 + 1 * (y 2).val; omega
  · show V m c main_arg3 (((cfg0.win 3).blk t).view.emb (ix3 (y 0) (0 : Fin 1) (y 2))) = V m c main_arg3 _
    congr 1; funext a; apply Fin.ext
    match a with
    | ⟨0, _⟩ => show win0_3.index t (0 : Fin 3) * 4 + 1 * (y 0).val = win0_4.index t (0 : Fin 3) * 4 + 1 * (y 0).val; omega
    | ⟨1, _⟩ => show win0_3.index t (1 : Fin 3) * 1 + 1 * 0 = 0; omega
    | ⟨2, _⟩ => show win0_3.index t (2 : Fin 3) * 64 + 1 * (y 2).val = win0_4.index t (2 : Fin 3) * 64 + 1 * (y 2).val; omega

/-! ## The blocks cover the array -/

/-- An array index is in point `t`'s block iff each coordinate is in the block's range on its axis. -/
theorem mem_block (t : Fin cfg0.N) (i : S256x4096x64.Idx) :
    i ∈ ((cfg0.win 4).blk t).view.set
      ↔ ∀ a : Fin 3, win0_4.index t a * S4x1024x64.size a ≤ (i a).val ∧ (i a).val < win0_4.index t a * S4x1024x64.size a + S4x1024x64.size a := by
  show i ∈ ((View.whole main_v0).slice (win0_4.rect t)).set ↔ _
  rw [View.set_slice_whole, Rect.mem_set_unit]
  exact Iff.rfl

/-- Every index of the result array is in the block of the point p = n / 4, q = b / 1024. -/
theorem covered (i : S256x4096x64.Idx) :
    ∃ t : Fin cfg0.N, (cfg0.win 4).flush t = true ∧ i ∈ ((cfg0.win 4).blk t).view.set := by
  have hi0 : (i 0).val < 256 := (i 0).isLt
  have hi1 : (i 1).val < 4096 := (i 1).isLt
  have hi2 : (i 2).val < 64 := (i 2).isLt
  have ht : (i 0).val / 4 * 4 + (i 1).val / 1024 < cfg0.N := by show _ < 256; omega
  obtain ⟨o0, o1, o2, -⟩ := block_positions ⟨(i 0).val / 4 * 4 + (i 1).val / 1024, ht⟩
  refine ⟨⟨(i 0).val / 4 * 4 + (i 1).val / 1024, ht⟩, flush0_4 _, ?_⟩
  rw [mem_block]
  intro a
  match a with
  | ⟨0, _⟩ =>
    show win0_4.index _ (0 : Fin 3) * 4 ≤ (i 0).val ∧ (i 0).val < win0_4.index _ (0 : Fin 3) * 4 + 4
    rw [o0]; show ((i 0).val / 4 * 4 + (i 1).val / 1024) / 4 * 4 ≤ (i 0).val ∧ (i 0).val < ((i 0).val / 4 * 4 + (i 1).val / 1024) / 4 * 4 + 4; omega
  | ⟨1, _⟩ =>
    show win0_4.index _ (1 : Fin 3) * 1024 ≤ (i 1).val ∧ (i 1).val < win0_4.index _ (1 : Fin 3) * 1024 + 1024
    rw [o1]; show ((i 0).val / 4 * 4 + (i 1).val / 1024) % 4 * 1024 ≤ (i 1).val ∧ (i 1).val < ((i 0).val / 4 * 4 + (i 1).val / 1024) % 4 * 1024 + 1024; omega
  | ⟨2, _⟩ =>
    show win0_4.index _ (2 : Fin 3) * 64 ≤ (i 2).val ∧ (i 2).val < win0_4.index _ (2 : Fin 3) * 64 + 64
    rw [o2]; omega

/-! ## The result array, and the run -/

/-- THE RESULT ARRAY after the run is the specification's array of the arguments as launched. -/
theorem final (c : Dev nD) :
    (dats m 0 c).arrAt 4 cfg0.N
      = result (m ((c : Thread nD τ).loc main_arg0)) (m ((c : Thread nD τ).loc main_arg1)) (m ((c : Thread nD τ).loc main_arg2)) (m ((c : Thread nD τ).loc main_arg3)) :=
  (dats m 0 c).arrAt_eq_of_cover 4 (result (V m c main_arg0) (V m c main_arg1) (V m c main_arg2) (V m c main_arg3))
    (fun t _ => flushed_eq m c t) covered

/-- The kernel's run, re-posted: the result at the specification's array, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.Reference.lean ====
/-
  The reference computes the specification.

  Its program is the batched product of x with W · mask over the feature axis, plus the bias broadcast down the batch
  rows, and then the logistic function spelt out as 1 / (1 + e^(-z)). Read entry by entry: the batched product at
  (n, b, t) is the sum over f of x[n, b, f] · (W[n, f, t] · mask[n, f, t]); the broadcast bias there is bias[n, 0, t];
  the literal 1.0 is the extended real one; and on the extended reals 1 / (1 + e^(-z)), with the division and the
  exponential taken at their conventions for the infinities, is by definition the logistic function.
-/
import proofs.«428001_j65670049956245_4_alg».proof.Proof.Gen.ReferenceIdeal.Read
import proofs.«428001_j65670049956245_4_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NodeSigmoid

/-- The left operand of the batched product at contraction position k: x at (n, b, k). -/
theorem lidx_eq (i : S256x4096x64.Idx) (k : Fin 64) :
    lidx_main_v1 i k = ix3 (n0 := 256) (n1 := 4096) (n2 := 64) (i 0) (i 1) k :=
  funext fun a => match a with | ⟨0, _⟩ => rfl | ⟨1, _⟩ => rfl | ⟨2, _⟩ => rfl

/-- The right operand there: the masked weight at (n, k, t). -/
theorem ridx_eq (i : S256x4096x64.Idx) (k : Fin 64) :
    ridx_main_v1 i k = ix3 (n0 := 256) (n1 := 64) (n2 := 64) (i 0) k (i 2) :=
  funext fun a => match a with | ⟨0, _⟩ => rfl | ⟨1, _⟩ => rfl | ⟨2, _⟩ => rfl

/-- The broadcast bias at (n, b, t): bias at (n, 0, t). -/
theorem bidx_eq (i : S256x4096x64.Idx) :
    idx_main_v2 i = ix3 (n0 := 256) (n1 := 1) (n2 := 64) (i 0) (0 : Fin 1) (i 2) :=
  funext fun a => match a with | ⟨0, _⟩ => rfl | ⟨1, _⟩ => rfl | ⟨2, _⟩ => rfl

/-- THE REFERENCE'S RESULT is the specification's, as whole arrays. -/
theorem reference_eq (x0 : (⟨S256x4096x64, .f32⟩ : BufTy).Contents (Elt Ideal)) (x1 x2 : (⟨S256x64x64, .f32⟩ : BufTy).Contents (Elt Ideal))
    (x3 : (⟨S256x1x64, .f32⟩ : BufTy).Contents (Elt Ideal)) :
    val_main_v9 (F := Ideal) x0 x1 x2 x3 = result x0 x1 x2 x3 := by
  funext i
  rw [val_main_v9_apply, val_main_v8_apply, val_main_cst_0_apply, val_main_v7_apply, val_main_v6_apply, val_main_cst_apply,
    val_main_v5_apply, val_main_v4_apply, val_main_v3_apply, val_main_v1_apply, val_main_v2_apply]
  simp only [val_main_v0_apply, lidx_eq, ridx_eq, bidx_eq, Ideal.ofBits_def, Ideal.ofBits_one_f32, Ideal.mulf_def]
  rfl

end Cert.ReferenceIdeal.RefValue

end
-- ==== Proof.lean ====
/- The proof of `Cert.Claim`: a masked per-node linear layer with a sigmoid, over 256 nodes, 4096 batch rows and 64 features.

   Both programs compute, on the extended reals,

       out[n, b, t] = σ( Σ_{f < 64} x[n, b, f] · (W[n, f, t] · mask[n, f, t]) + bias[n, 0, t] ),   σ(z) = 1 / (1 + e^(-z)).

   The reference does it as one batched product over the feature axis. The kernel takes four nodes at a time, lays
   their rows side by side into a 1024 × 256 matrix, multiplies by a 256 × 256 matrix that carries the four masked
   weight tiles on its diagonal blocks and zero elsewhere, adds the four bias rows laid end to end, applies the
   logistic function and stores the four column bands back as the four nodes' results. The two agree because a
   product with zero is zero on the extended reals, so of the 256 packed positions only the node's own 64 contribute
   (Proof/Spec.lean, `sum_blockDiag`): no entry need be finite for that, and the precondition is not opened. The
   narrowing of the factors before the product is the identity at the ideal instance, and the kernel's logistic
   operation and the reference's spelt-out 1 / (1 + e^(-z)) are one function there.

   Proof/Spec.lean states the function and the block-diagonal law; Proof/PackedOperands.lean, Proof/PackedWeights.lean
   and Proof/Payload.lean read the kernel body's value entry by entry; Proof/Blocks.lean carries that from one grid
   point's block to the whole result array; Proof/Reference.lean reads the reference. The three frames are the
   generated ones (the reference's is its run with the result dropped), and the idealization rewrote nothing, so
   `preserves` is `True`. -/
import proofs.«428001_j65670049956245_4_alg».proof.Defs
import proofs.«428001_j65670049956245_4_alg».proof.Proof.Gen.Kernel
import proofs.«428001_j65670049956245_4_alg».proof.Proof.Gen.Kernel.Frame
import proofs.«428001_j65670049956245_4_alg».proof.Proof.Gen.KernelIdeal
import proofs.«428001_j65670049956245_4_alg».proof.Proof.Gen.KernelIdeal.Frame
import proofs.«428001_j65670049956245_4_alg».proof.Proof.Gen.KernelIdeal.Value
import proofs.«428001_j65670049956245_4_alg».proof.Proof.Gen.ReferenceIdeal
import proofs.«428001_j65670049956245_4_alg».proof.Proof.Gen.ReferenceIdeal.Run
import proofs.«428001_j65670049956245_4_alg».proof.Proof.Gen.ReferenceIdeal.Read
import proofs.«428001_j65670049956245_4_alg».proof.Proof.Gen.Pre_finite_inputs
import proofs.«428001_j65670049956245_4_alg».proof.Proof.Blocks
import proofs.«428001_j65670049956245_4_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the specification's array of them. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
